-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S65536x685 : S_.BroadcastsInDim S65536x685 (![] : Fin 0 → Fin S65536x685.rank)
  reducesTo_S65536x685_S_d0_1 : S65536x685.ReducesTo [0, 1] S_
  bcast_S_S768x685 : S_.BroadcastsInDim S768x685 (![] : Fin 0 → Fin S768x685.rank)
  reducesTo_S768x685_S_d0_1 : S768x685.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg5 : FVec F S768 .f32) (main_arg6 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg5
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S200000x256 .f32) (main_arg1 : FVec F S65536x685 .f32) (main_arg2 : IVec S65536 32) (main_arg3 : FVec F S768x685 .f32) (main_arg4 : FVec F S768x256 .f32) (main_arg5 : FVec F S768 .f32) (main_arg6 : FVec F S768 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S65536x685 .f32 := Host.absf main_arg1
  let main_cst_0 : FVec F S_ .f32 := constant S_ .f32 0x7F800000#32
  let main_v5 : FVec F S65536x685 .f32 := broadcastInDim S65536x685 ![] bcast_S_S65536x685 main_cst_0
  let main_v6 : IVec S65536x685 1 := cmpf .olt main_v4 main_v5
  let main_c_1 : IVec S_ 1 := constantI S_ 1 1#1
  let main_v7 : IVec S_ 1 := (fun x v => Host.reduce IntOp.andi x v reducesTo_S65536x685_S_d0_1 h_S_) main_v6 main_c_1
  let main_v8 : IVec S_ 1 := andi main_v3 main_v7
  let main_v9 : FVec F S768x685 .f32 := Host.absf main_arg3
  let main_cst_2 : FVec F S_ .f32 := constant S_ .f32 0x7F800000#32
  let main_v10 : FVec F S768x685 .f32 := broadcastInDim S768x685 ![] bcast_S_S768x685 main_cst_2
  let main_v11 : IVec S768x685 1 := cmpf .olt main_v9 main_v10
  let main_c_3 : IVec S_ 1 := constantI S_ 1 1#1
  let main_v12 : IVec S_ 1 := (fun x v => Host.reduce IntOp.andi x v reducesTo_S768x685_S_d0_1 h_S_) main_v11 main_c_3
  let main_v13 : IVec S_ 1 := andi main_v8 main_v12
  let main_v14 : FVec F S768x256 .f32 := Host.absf main_arg4
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg5 main_arg6 main_v13 main_v16
-- ==== Kernel.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩
abbrev S65536x1 : Shape := ⟨2, ![65536, 1]⟩
abbrev S65536x256 : Shape := ⟨2, ![65536, 256]⟩
abbrev S685x768 : Shape := ⟨2, ![685, 768]⟩
abbrev S256x768 : Shape := ⟨2, ![256, 768]⟩
abbrev S1x768 : Shape := ⟨2, ![1, 768]⟩
abbrev S512x685 : Shape := ⟨2, ![512, 685]⟩
abbrev S512x256 : Shape := ⟨2, ![512, 256]⟩
abbrev S512x768 : Shape := ⟨2, ![512, 768]⟩

abbrev nBuf : Space → Nat
  | .hbm => 30
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S65536x685, .f32⟩
  | .hbm, ⟨2, _⟩ => ⟨S65536, .i32⟩
  | .hbm, ⟨3, _⟩ => ⟨S768x685, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x256, .f32⟩
  | .hbm, ⟨16, _⟩ => ⟨S685x768, .f32⟩
  | .hbm, ⟨17, _⟩ => ⟨S256x768, .f32⟩
  | .hbm, ⟨18, _⟩ => ⟨S1x768, .f32⟩
  | .hbm, ⟨19, _⟩ => ⟨S1x768, .f32⟩
  | .hbm, ⟨20, _⟩ => ⟨S65536x256, .f32⟩
  | .hbm, ⟨21, _⟩ => ⟨S_, .i32⟩
  | .hbm, ⟨22, _⟩ => ⟨S65536, .i32⟩
  | .hbm, ⟨23, _⟩ => ⟨S65536, .i1⟩
  | .hbm, ⟨24, _⟩ => ⟨S_, .i32⟩
  | .hbm, ⟨25, _⟩ => ⟨S65536, .i32⟩
  | .hbm, ⟨26, _⟩ => ⟨S65536, .i32⟩
  | .hbm, ⟨27, _⟩ => ⟨S65536, .i32⟩
  | .hbm, ⟨28, _⟩ => ⟨S65536x1, .i32⟩
  | .hbm, ⟨29, _⟩ => ⟨S200000x256, .f32⟩
  | .local _ .vmem, ⟨0, _⟩ => ⟨S512x685, .f32⟩
  | .local _ .vmem, ⟨1, _⟩ => ⟨S512x685, .f32⟩
  | .local _ .vmem, ⟨2, _⟩ => ⟨S512x256, .f32⟩
  | .local _ .vmem, ⟨3, _⟩ => ⟨S512x256, .f32⟩
  | .local _ .vmem, ⟨4, _⟩ => ⟨S685x768, .f32⟩
  | .local _ .vmem, ⟨5, _⟩ => ⟨S256x768, .f32⟩
  | .local _ .vmem, ⟨6, _⟩ => ⟨S1x768, .f32⟩
  | .local _ .vmem, ⟨7, _⟩ => ⟨S1x768, .f32⟩
  | .local _ .vmem, ⟨8, _⟩ => ⟨S512x256, .f32⟩
  | .local _ .vmem, ⟨9, _⟩ => ⟨S512x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x685 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S685x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  transposes_S768x685_S685x768_1_0 : S768x685.Transposes [1, 0] S685x768
  transposes_S768x256_S256x768_1_0 : S768x256.Transposes [1, 0] S256x768
  shapeCasts_S768_S1x768 : S768.ShapeCasts S1x768
  inb_S512x685_S512x685_0_0 : ∀ a, (![0, 0] : Fin 2 → Nat) a + S512x685.size a ≤ S512x685.size a
  h_S512x685 : 0 < S512x685.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S685x768_S685x768_0_0 : ∀ a, (![0, 0] : Fin 2 → Nat) a + S685x768.size a ≤ S685x768.size a
  h_S685x768 : 0 < S685x768.numel
  shapeCasts_S685x768_S685x768 : S685x768.ShapeCasts S685x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  gather_S200000x256_S65536x1_S65536x256_1_0_n_n_0_1_1256_wf : GatherDims.WF S200000x256 S65536x1 S65536x256 [1] [0] [] [0] [] 1 ![1, 256]
  dot_S512x685_S685x768_S512x768_1_0_0_1_n_n_wf : DotDims.WF S512x685 S685x768 S512x768 [1] [0] [0] [1] [] []
  dot_S512x256_S256x768_S512x768_1_0_0_1_n_n_wf : DotDims.WF S512x256 S256x768 S512x768 [1] [0] [0] [1] [] []
  scatter_S200000x256_S65536x1_S65536x256_1_0_0_1_wf : ScatterDims.WF S200000x256 S65536x1 S65536x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x685.size a ≤ S65536x685.size a
  hwx0_0 : ∀ i : grid0.Coords, EltTy.bits .f32 = 32 ∨ (Rect.block (s := S65536x685) S512x685.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S65536x256.size a
  hwx0_1 : ∀ i : grid0.Coords, EltTy.bits .f32 = 32 ∨ (Rect.block (s := S65536x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S685x768.size a ≤ S685x768.size a
  hwx0_2 : ∀ i : grid0.Coords, EltTy.bits .f32 = 32 ∨ (Rect.block (s := S685x768) S685x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .f32 = 32 ∨ (Rect.block (s := S256x768) S256x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S65536x256.size a
  hwx0_6 : ∀ i : grid0.Coords, EltTy.bits .f32 = 32 ∨ (Rect.block (s := S65536x256) S512x256.size (cc0_transform_6 i) (hinb0_6 i)).WholeWords (EltTy.packing .f32)

variable [Facts₀]

def gather_S200000x256_S65536x1_S65536x256_1_0_n_n_0_1_1256 : GatherDims S200000x256 S65536x1 S65536x256 where
  offsetDims := [1]
  collapsedSliceDims := [0]
  operandBatchingDims := []
  startIndicesBatchingDims := []
  startIndexMap := [0]
  indexVectorDim := 1
  sliceSizes := ![1, 256]
  wf := gather_S200000x256_S65536x1_S65536x256_1_0_n_n_0_1_1256_wf
def dot_S512x685_S685x768_S512x768_1_0_0_1_n_n : DotDims S512x685 S685x768 S512x768 where
  lhsContracting := [1]
  rhsContracting := [0]
  lhsNonContracting := [0]
  rhsNonContracting := [1]
  lhsBatch := []
  rhsBatch := []
  wf := dot_S512x685_S685x768_S512x768_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def scatter_S200000x256_S65536x1_S65536x256_1_0_0_1 : ScatterDims S200000x256 S65536x1 S65536x256 where
  updateWindowDims := [1]
  insertedWindowDims := [0]
  scatterDimsToOperandDims := [0]
  indexVectorDim := 1
  wf := scatter_S200000x256_S65536x1_S65536x256_1_0_0_1_wf

abbrev win0_0 : Pipeline.Window sig grid0 :=
  Pipeline.Window.ofSpec (Memref.whole main_arg1) S512x685.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S685x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S200000x256 : Shape := ⟨2, ![200000, 256]⟩
abbrev S65536x685 : Shape := ⟨2, ![65536, 685]⟩
abbrev S65536 : Shape := ⟨1, ![65536]⟩
abbrev S768x685 : Shape := ⟨2, ![768, 685]⟩
abbrev S768x256 : Shape := ⟨2, ![768, 256]⟩
abbrev S768 : Shape := ⟨1, ![768]⟩
abbrev S_ : Shape := ⟨0, ![]⟩
abbrev S65536x1 : Shape := ⟨2, ![65536, 1]⟩
abbrev S65536x256 : Shape := ⟨2, ![65536, 256]⟩
abbrev S685x768 : Shape := ⟨2, ![685, 768]⟩
abbrev S65536x768 : Shape := ⟨2, ![65536, 768]⟩
abbrev S1x768 : Shape := ⟨2, ![1, 768]⟩
abbrev S256x768 : Shape := ⟨2, ![256, 768]⟩

abbrev nBuf : Space → Nat
  | .hbm => 68
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S65536x685, .f32⟩
  | .hbm, ⟨2, _⟩ => ⟨S65536, .i32⟩
  | .hbm, ⟨3, _⟩ => ⟨S768x685, .f32⟩
  | .hbm, ⟨4, _⟩ => ⟨S768x256, .f32⟩
  | .hbm, ⟨5, _⟩ => ⟨S768, .f32⟩
  | .hbm, ⟨6, _⟩ => ⟨S768, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x256, .f32⟩
  | .hbm, ⟨16, _⟩ => ⟨S685x768, .f32⟩
  | .hbm, ⟨17, _⟩ => ⟨S65536x768, .f32⟩
  | .hbm, ⟨18, _⟩ => ⟨S1x768, .f32⟩
  | .hbm, ⟨19, _⟩ => ⟨S65536x768, .f32⟩
  | .hbm, ⟨20, _⟩ => ⟨S65536x768, .f32⟩
  | .hbm, ⟨21, _⟩ => ⟨S256x768, .f32⟩
  | .hbm, ⟨22, _⟩ => ⟨S65536x768, .f32⟩
  | .hbm, ⟨23, _⟩ => ⟨S1x768, .f32⟩
  | .hbm, ⟨24, _⟩ => ⟨S65536x768, .f32⟩
  | .hbm, ⟨25, _⟩ => ⟨S65536x768, .f32⟩
  | .hbm, ⟨26, _⟩ => ⟨S65536x256, .f32⟩
  | .hbm, ⟨27, _⟩ => ⟨S65536x256, .f32⟩
  | .hbm, ⟨28, _⟩ => ⟨S65536x256, .f32⟩
  | .hbm, ⟨29, _⟩ => ⟨S65536x256, .f32⟩
  | .hbm, ⟨30, _⟩ => ⟨S65536x256, .f32⟩
  | .hbm, ⟨31, _⟩ => ⟨S65536x256, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536x256, .f32⟩
  | .hbm, ⟨37, _⟩ => ⟨S65536x256, .f32⟩
  | .hbm, ⟨38, _⟩ => ⟨S_, .f32⟩
  | .hbm, ⟨39, _⟩ => ⟨S65536x256, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x256, .f32⟩
  | .hbm, ⟨44, _⟩ => ⟨S_, .f32⟩
  | .hbm, ⟨45, _⟩ => ⟨S65536x256, .f32⟩
  | .hbm, ⟨46, _⟩ => ⟨S65536x256, .f32⟩
  | .hbm, ⟨47, _⟩ => ⟨S_, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S_, .f32⟩
  | .hbm, ⟨54, _⟩ => ⟨S65536x256, .f32⟩
  | .hbm, ⟨55, _⟩ => ⟨S65536x256, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S_, .i32⟩
  | .hbm, ⟨60, _⟩ => ⟨S65536, .i32⟩
  | .hbm, ⟨61, _⟩ => ⟨S65536, .i1⟩
  | .hbm, ⟨62, _⟩ => ⟨S_, .i32⟩
  | .hbm, ⟨63, _⟩ => ⟨S65536, .i32⟩
  | .hbm, ⟨64, _⟩ => ⟨S65536, .i32⟩
  | .hbm, ⟨65, _⟩ => ⟨S65536, .i32⟩
  | .hbm, ⟨66, _⟩ => ⟨S65536x1, .i32⟩
  | .hbm, ⟨67, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  transposes_S768x685_S685x768_1_0 : S768x685.Transposes [1, 0] S685x768
  bcast_S768_S1x768_1 : S768.BroadcastsInDim S1x768 (![1] : Fin 1 → Fin S1x768.rank)
  bcast_S1x768_S65536x768_0_1 : S1x768.BroadcastsInDim S65536x768 (![0, 1] : Fin 2 → Fin S65536x768.rank)
  transposes_S768x256_S256x768_1_0 : S768x256.Transposes [1, 0] S256x768
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S_S65536x256 : S_.BroadcastsInDim S65536x256 (![] : Fin 0 → Fin S65536x256.rank)
  gather_S200000x256_S65536x1_S65536x256_1_0_n_n_0_1_1256_wf : GatherDims.WF S200000x256 S65536x1 S65536x256 [1] [0] [] [0] [] 1 ![1, 256]
  dot_S65536x685_S685x768_S65536x768_1_0_0_1_n_n_wf : DotDims.WF S65536x685 S685x768 S65536x768 [1] [0] [0] [1] [] []
  dot_S65536x256_S256x768_S65536x768_1_0_0_1_n_n_wf : DotDims.WF S65536x256 S256x768 S65536x768 [1] [0] [0] [1] [] []
  scatter_S200000x256_S65536x1_S65536x256_1_0_0_1_wf : ScatterDims.WF S200000x256 S65536x1 S65536x256 [1] [0] [0] 1

variable [Facts₀]

def gather_S200000x256_S65536x1_S65536x256_1_0_n_n_0_1_1256 : GatherDims S200000x256 S65536x1 S65536x256 where
  offsetDims := [1]
  collapsedSliceDims := [0]
  operandBatchingDims := []
  startIndicesBatchingDims := []
  startIndexMap := [0]
  indexVectorDim := 1
  sliceSizes := ![1, 256]
  wf := gather_S200000x256_S65536x1_S65536x256_1_0_n_n_0_1_1256_wf
def dot_S65536x685_S685x768_S65536x768_1_0_0_1_n_n : DotDims S65536x685 S685x768 S65536x768 where
  lhsContracting := [1]
  rhsContracting := [0]
  lhsNonContracting := [0]
  rhsNonContracting := [1]
  lhsBatch := []
  rhsBatch := []
  wf := dot_S65536x685_S685x768_S65536x768_1_0_0_1_n_n_wf
def dot_S65536x256_S256x768_S65536x768_1_0_0_1_n_n : DotDims S65536x256 S256x768 S65536x768 where
  lhsContracting := [1]
  rhsContracting := [0]
  lhsNonContracting := [0]
  rhsNonContracting := [1]
  lhsBatch := []
  rhsBatch := []
  wf := dot_S65536x256_S256x768_S65536x768_1_0_0_1_n_n_wf
def scatter_S200000x256_S65536x1_S65536x256_1_0_0_1 : ScatterDims S200000x256 S65536x1 S65536x256 where
  updateWindowDims := [1]
  insertedWindowDims := [0]
  scatterDimsToOperandDims := [0]
  indexVectorDim := 1
  wf := scatter_S200000x256_S65536x1_S65536x256_1_0_0_1_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.GruSpec.lean ====
/-
  The gated recurrent cell, as one function of the arrays.

  For an update row `u` and a hidden coordinate `j`, with `gi = msg · Wi + bi` and `gh = h · Wh + bh` (both of
  width 768, read in three bands of 256: reset, update, candidate), the new hidden value is
  `(1 - z) · tanh (gi_n + r · gh_n) + z · h`, where `r = σ (gi_r + gh_r)` and `z = σ (gi_z + gh_z)`, every
  operation the exact one on the extended reals.
-/
import Idealize.ShloMosaic.PureOps.Ideal
import Idealize.ShloMosaic.Lib.ValueIdx

noncomputable section

open scoped BigOperators

namespace Cert.GruSpec

open Idealize.ShloMosaic Idealize.ShloMosaic.ValueIdx

/-- Column `j` of the reset band. -/
def colR (j : Fin 256) : Fin 768 := ⟨j.val, by omega⟩
/-- Column `j` of the update band. -/
def colZ (j : Fin 256) : Fin 768 := ⟨256 + j.val, by omega⟩
/-- Column `j` of the candidate band. -/
def colN (j : Fin 256) : Fin 768 := ⟨512 + j.val, by omega⟩

/-- One entry of `x · w + b`: row `u` of `x` against column `n` of `w`, plus the bias at `n`. -/
def affine {R K : ℕ} (x : (⟨2, ![R, K]⟩ : Shape).Idx → EReal) (w : (⟨2, ![K, 768]⟩ : Shape).Idx → EReal)
    (b : Fin 768 → EReal) (u : Fin R) (n : Fin 768) : EReal :=
  (∑ k : Fin K, x (ix2 u k) * w (ix2 k n)) + b n

/-- The cell's arithmetic on the six pre-activations and the previous hidden value. -/
def cell (ir hr iz hz inn hn hp : EReal) : EReal :=
  (1 - Ideal.logistic (iz + hz)) * Ideal.tanh (inn + Ideal.logistic (ir + hr) * hn) + Ideal.logistic (iz + hz) * hp

/-- The new hidden value at row `u`, coordinate `j`, for `R` rows. -/
def updAt {R : ℕ} (msg : (⟨2, ![R, 685]⟩ : Shape).Idx → EReal) (h : (⟨2, ![R, 256]⟩ : Shape).Idx → EReal)
    (wi : (⟨2, ![685, 768]⟩ : Shape).Idx → EReal) (wh : (⟨2, ![256, 768]⟩ : Shape).Idx → EReal)
    (bi bh : Fin 768 → EReal) (u : Fin R) (j : Fin 256) : EReal :=
  cell (affine msg wi bi u (colR j)) (affine h wh bh u (colR j))
    (affine msg wi bi u (colZ j)) (affine h wh bh u (colZ j))
    (affine msg wi bi u (colN j)) (affine h wh bh u (colN j))
    (h (ix2 u j))

/-- The array of new hidden values. -/
def upd {R : ℕ} (msg : (⟨2, ![R, 685]⟩ : Shape).Idx → EReal) (h : (⟨2, ![R, 256]⟩ : Shape).Idx → EReal)
    (wi : (⟨2, ![685, 768]⟩ : Shape).Idx → EReal) (wh : (⟨2, ![256, 768]⟩ : Shape).Idx → EReal)
    (bi bh : Fin 768 → EReal) : (⟨2, ![R, 256]⟩ : Shape).Idx → EReal :=
  fun i => updAt msg h wi wh bi bh (i 0) (i 1)

/-- The new hidden value at a row depends on the row alone: two pairs of arrays that agree on one row (under any
    renumbering of the rows), with the same weights and biases, give the same value there. -/
theorem updAt_congr_row {R R' : ℕ} (msg : (⟨2, ![R, 685]⟩ : Shape).Idx → EReal) (h : (⟨2, ![R, 256]⟩ : Shape).Idx → EReal)
    (msg' : (⟨2, ![R', 685]⟩ : Shape).Idx → EReal) (h' : (⟨2, ![R', 256]⟩ : Shape).Idx → EReal)
    (wi wi' : (⟨2, ![685, 768]⟩ : Shape).Idx → EReal) (wh wh' : (⟨2, ![256, 768]⟩ : Shape).Idx → EReal)
    (bi bh bi' bh' : Fin 768 → EReal) (u : Fin R) (u' : Fin R') (j j' : Fin 256)
    (hmsg : ∀ k, msg' (ix2 u' k) = msg (ix2 u k)) (hh : ∀ k, h' (ix2 u' k) = h (ix2 u k))
    (hwi : wi' = wi) (hwh : wh' = wh) (hbi : bi' = bi) (hbh : bh' = bh) (hj : j' = j) :
    updAt msg' h' wi' wh' bi' bh' u' j' = updAt msg h wi wh bi bh u j := by
  subst hwi hwh hbi hbh hj
  unfold updAt affine
  simp only [hmsg, hh]

end Cert.GruSpec

end
-- ==== Proof.KernelCell.lean ====
/-
  What the body of the recurrent-cell kernel stores, entry by entry.

  On one block of 512 update rows the body forms `gi = msg · Wi + bi` and `gh = h · Wh + bh` (two products into a
  zero accumulator, the narrowing of their operands to bf16 being the identity on exact values, each bias row
  repeated down the block), cuts both into the reset, update and candidate bands, and stores
  `(1 - z) · tanh (gi_n + r · gh_n) + z · h`. Read at row `p` and coordinate `q` of the block this is the cell of
  the specification at the block's own rows.
-/
import proofs.«138148_j82944408420703_1_alg».proof.Proof.Gen.KernelIdeal.Skeleton
import proofs.«138148_j82944408420703_1_alg».proof.Proof.LibMatmulAt
import proofs.«138148_j82944408420703_1_alg».proof.Proof.GruSpec
import Idealize.ShloMosaic.Lib.Pipeline.Value
import Idealize.ShloMosaic.Lib.IdealHost

noncomputable section

open scoped BigOperators

namespace Cert.KernelIdeal.Cell

open Idealize.ShloMosaic Idealize.ShloMosaic.ValueIdx Cert.KernelIdeal Cert.KernelIdeal.Gen Cert.GruSpec

/-- A bias row broadcast down a block of 512 rows reads the row's entry in that column. -/
theorem bias_at (b : FVec Ideal S1x768 .f32) (p : Fin 512) (n : Fin 768) :
    broadcastTo S512x768 (shapeCast S1x768 b shapeCasts_S1x768_S1x768) broadcasts_S1x768_S512x768 (ix2 p n) = b (ix2 0 n) := by
  rw [shapeCast_self]
  exact broadcastTo_apply b broadcasts_S1x768_S512x768 (ix2 p n) (ix2 0 n) (fun a => match a with
    | ⟨0, _⟩ => by show (0 : ℕ) = if (1 : ℕ) = 1 then 0 else _; rw [if_pos rfl]
    | ⟨1, _⟩ => by show n.val = if (768 : ℕ) = 1 then 0 else n.val; rw [if_neg (by decide)])

/-- The input-side pre-activation of a block: row `p` of the block of messages against column `n` of the weights,
    plus the bias (the narrowing to bf16 is the identity on exact values). -/
theorem preI_at (x0 : FVec Ideal S512x685 .f32) (x2 : FVec Ideal S685x768 .f32) (x4 : FVec Ideal S1x768 .f32) (p : Fin 512) (n : Fin 768) :
    addf (matmul dot_S512x685_S685x768_S512x768_1_0_0_1_n_n none (truncf .bf16 x0 bitsLt_bf16_f32)
        (truncf .bf16 (shapeCast S685x768 x2 shapeCasts_S685x768_S685x768) bitsLt_bf16_f32) (constant (F := Ideal) S512x768 .f32 0#32))
      (broadcastTo S512x768 (shapeCast S1x768 x4 shapeCasts_S1x768_S1x768) broadcasts_S1x768_S512x768) (ix2 p n)
    = affine x0 x2 (fun n => x4 (ix2 0 n)) p n := by
  rw [shapeCast_self]
  show _ + _ = _
  unfold affine
  rw [bias_at]
  congr 1
  exact Cert.LibMatmulAt.matmul_zero_at dot_S512x685_S685x768_S512x768_1_0_0_1_n_n rfl rfl rfl rfl rfl rfl none _ _ p n

/-- The hidden-side pre-activation of a block, likewise. -/
theorem preH_at (x1 : FVec Ideal S512x256 .f32) (x3 : FVec Ideal S256x768 .f32) (x5 : FVec Ideal S1x768 .f32) (p : Fin 512) (n : Fin 768) :
    addf (matmul dot_S512x256_S256x768_S512x768_1_0_0_1_n_n none
        (truncf .bf16 (shapeCast S512x256 x1 shapeCasts_S512x256_S512x256) bitsLt_bf16_f32)
        (truncf .bf16 (shapeCast S256x768 x3 shapeCasts_S256x768_S256x768) bitsLt_bf16_f32) (constant (F := Ideal) S512x768 .f32 0#32))
      (broadcastTo S512x768 (shapeCast S1x768 x5 shapeCasts_S1x768_S1x768) broadcasts_S1x768_S512x768) (ix2 p n)
    = affine x1 x3 (fun n => x5 (ix2 0 n)) p n := by
  rw [shapeCast_self, shapeCast_self]
  show _ + _ = _
  unfold affine
  rw [bias_at]
  congr 1
  exact Cert.LibMatmulAt.matmul_zero_at dot_S512x256_S256x768_S512x768_1_0_0_1_n_n rfl rfl rfl rfl rfl rfl none _ _ p n

/-- The three bands of a row of pre-activations. -/
theorem bandR_at (v : FVec Ideal S512x768 .f32) (p : Fin 512) (q : Fin 256) :
    extractStridedSlice S512x256 ![0, 0] v slices_S512x768_o0_0_S512x256 (ix2 p q) = v (ix2 p (colR q)) :=
  extractStridedSlice_apply _ v _ (ix2 p q) (ix2 p (colR q)) (fun a => match a with
    | ⟨0, _⟩ => by show p.val = 0 + p.val; omega
    | ⟨1, _⟩ => by show q.val = 0 + q.val; omega)
theorem bandZ_at (v : FVec Ideal S512x768 .f32) (p : Fin 512) (q : Fin 256) :
    extractStridedSlice S512x256 ![0, 256] v slices_S512x768_o0_256_S512x256 (ix2 p q) = v (ix2 p (colZ q)) :=
  extractStridedSlice_apply _ v _ (ix2 p q) (ix2 p (colZ q)) (fun a => match a with
    | ⟨0, _⟩ => by show p.val = 0 + p.val; omega
    | ⟨1, _⟩ => rfl)
theorem bandN_at (v : FVec Ideal S512x768 .f32) (p : Fin 512) (q : Fin 256) :
    extractStridedSlice S512x256 ![0, 512] v slices_S512x768_o0_512_S512x256 (ix2 p q) = v (ix2 p (colN q)) :=
  extractStridedSlice_apply _ v _ (ix2 p q) (ix2 p (colN q)) (fun a => match a with
    | ⟨0, _⟩ => by show p.val = 0 + p.val; omega
    | ⟨1, _⟩ => rfl)

/-- WHAT THE BODY STORES at row `p`, coordinate `q` of its block: the cell of the block's own pre-activations. -/
theorem pay_at (x0 : FVec Ideal S512x685 .f32) (x1 : FVec Ideal S512x256 .f32) (x2 : FVec Ideal S685x768 .f32)
    (x3 : FVec Ideal S256x768 .f32) (x4 x5 : FVec Ideal S1x768 .f32) (p : Fin 512) (q : Fin 256) :
    k0_pay1 (F := Ideal) x0 x1 x2 x3 x4 x5 (ix2 p q)
      = updAt x0 x1 x2 x3 (fun n => x4 (ix2 0 n)) (fun n => x5 (ix2 0 n)) p q := by
  unfold k0_pay1
  show (_ - Ideal.logistic (_ + _)) * Ideal.tanh (_ + Ideal.logistic (_ + _) * _) + Ideal.logistic (_ + _) * _ = _
  rw [bandR_at, bandR_at, bandZ_at, bandZ_at, bandN_at, bandN_at]
  simp only [preI_at, preH_at]
  rw [shapeCast_self]
  show (Ideal.ofBits .f32 0x3F800000#32 - _) * _ + _ = _
  rw [Ideal.ofBits_one_f32]
  rfl

/-- The same at any index of the block. -/
theorem pay_apply (x0 : FVec Ideal S512x685 .f32) (x1 : FVec Ideal S512x256 .f32) (x2 : FVec Ideal S685x768 .f32)
    (x3 : FVec Ideal S256x768 .f32) (x4 x5 : FVec Ideal S1x768 .f32) (y : S512x256.Idx) :
    k0_pay1 (F := Ideal) x0 x1 x2 x3 x4 x5 y
      = updAt x0 x1 x2 x3 (fun n => x4 (ix2 0 n)) (fun n => x5 (ix2 0 n)) (y 0) (y 1) := by
  obtain ⟨p, q, rfl⟩ : ∃ (p : Fin 512) (q : Fin 256), y = ix2 p q := ⟨y 0, y 1, eq_ix2 y⟩
  exact pay_at x0 x1 x2 x3 x4 x5 p q

end Cert.KernelIdeal.Cell
end
-- ==== Proof.KernelBlocks.lean ====
/-
  From the blocks the kernel writes back to the whole array of new hidden values.

  Grid point `t` fetches rows `512 t … 512 t + 511` of the messages and of the gathered hidden states and the
  whole of both weight matrices and both bias rows, and writes back rows `512 t … 512 t + 511` of the result. What
  it writes is, entry by entry, the cell of the specification at those rows of the whole arrays; the 128 blocks
  tile the result, so after the last point the result array is the specification's array.
-/
import proofs.«138148_j82944408420703_1_alg».proof.Proof.Gen.KernelIdeal.Frame
import proofs.«138148_j82944408420703_1_alg».proof.Proof.KernelCell
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.GruSpec

variable (m : (ℓ : Loc nD τ sig) → Buf (Elt Ideal) ℓ)

theorem hz : (![0, 0] : Fin 2 → Nat) = fun _ => 0 := funext fun a => by fin_cases a <;> rfl

/-- The arrays the region finds, by what they are to the cell. -/
abbrev aMsg (c : Dev nD) : FVec Ideal S65536x685 .f32 := V m c main_arg1
abbrev aHid (c : Dev nD) : FVec Ideal S65536x256 .f32 := V m c main_v6
abbrev aWi (c : Dev nD) : FVec Ideal S685x768 .f32 := V m c main_v7
abbrev aWh (c : Dev nD) : FVec Ideal S256x768 .f32 := V m c main_v8
abbrev aBi (c : Dev nD) : FVec Ideal S1x768 .f32 := V m c main_v9
abbrev aBh (c : Dev nD) : FVec Ideal S1x768 .f32 := V m c main_v10

/-- The blocks a point is given, at their literal shapes. -/
abbrev bMsg (c : Dev nD) (t : Fin cfg0.N) : FVec Ideal S512x685 .f32 := iblk m c 0 t
abbrev bHid (c : Dev nD) (t : Fin cfg0.N) : FVec Ideal S512x256 .f32 := iblk m c 1 t
abbrev bWi (c : Dev nD) (t : Fin cfg0.N) : FVec Ideal S685x768 .f32 := iblk m c 2 t
abbrev bWh (c : Dev nD) (t : Fin cfg0.N) : FVec Ideal S256x768 .f32 := iblk m c 3 t
abbrev bBi (c : Dev nD) (t : Fin cfg0.N) : FVec Ideal S1x768 .f32 := iblk m c 4 t
abbrev bBh (c : Dev nD) (t : Fin cfg0.N) : FVec Ideal S1x768 .f32 := iblk m c 5 t

/-- THE ARRAY OF NEW HIDDEN VALUES, of the arrays the region finds. -/
def newHid (c : Dev nD) : FVec Ideal S65536x256 .f32 :=
  upd (aMsg m c) (aHid m c) (aWi m c) (aWh m c) (fun n => aBi m c (ix2 0 n)) (fun n => aBh m c (ix2 0 n))

/-- The printed index maps over the grid: the row-blocked windows sit at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of the block of messages at point `t` is row `512 t + p` of the messages. -/
theorem bMsg_at (c : Dev nD) (t : Fin cfg0.N) (p : Fin 512) (k : Fin 685) (u : Fin 65536) (hu : u.val = 512 * t.val + p.val) :
    bMsg m c t (ix2 p k) = aMsg m c (ix2 u k) := by
  obtain ⟨e0, e1, -⟩ := idx_facts t
  show iblk m c 0 t _ = _
  unfold iblk
  rw [View.read_apply]
  show V m c main_arg1 _ = V m c main_arg1 _
  congr 1
  funext a
  apply Fin.ext
  match a with
  | ⟨0, _⟩ => show win0_0.index t 0 * 512 + 1 * p.val = u.val; rw [e0, hu]; omega
  | ⟨1, _⟩ => show win0_0.index t 1 * 685 + 1 * k.val = k.val; rw [e1]; omega

/-- Row `p` of the block of hidden states at point `t` is row `512 t + p` of the gathered hidden states. -/
theorem bHid_at (c : Dev nD) (t : Fin cfg0.N) (p : Fin 512) (k : Fin 256) (u : Fin 65536) (hu : u.val = 512 * t.val + p.val) :
    bHid m c t (ix2 p k) = aHid m c (ix2 u k) := by
  obtain ⟨-, -, e0, e1, -⟩ := idx_facts t
  show iblk m c 1 t _ = _
  unfold iblk
  rw [View.read_apply]
  show V m c main_v6 _ = V m c main_v6 _
  congr 1
  funext a
  apply Fin.ext
  match a with
  | ⟨0, _⟩ => show win0_1.index t 0 * 512 + 1 * p.val = u.val; rw [e0, hu]; omega
  | ⟨1, _⟩ => show win0_1.index t 1 * 256 + 1 * k.val = k.val; rw [e1]; omega

/-- Every point is given the whole of each weight matrix and of each bias row. -/
theorem bWi_eq (c : Dev nD) (t : Fin cfg0.N) : bWi m c t = aWi m c := by
  obtain ⟨-, -, -, -, e0, e1, -⟩ := idx_facts t
  funext y
  show iblk m c 2 t y = _
  unfold iblk
  rw [View.read_apply]
  show V m c main_v7 _ = V m c main_v7 _
  congr 1
  funext a
  apply Fin.ext
  match a with
  | ⟨0, _⟩ => show win0_2.index t 0 * 685 + 1 * (y 0).val = (y 0).val; rw [e0]; omega
  | ⟨1, _⟩ => show win0_2.index t 1 * 768 + 1 * (y 1).val = (y 1).val; rw [e1]; omega
theorem bWh_eq (c : Dev nD) (t : Fin cfg0.N) : bWh m c t = aWh m c := by
  obtain ⟨-, -, -, -, -, -, e0, e1, -⟩ := idx_facts t
  funext y
  show iblk m c 3 t y = _
  unfold iblk
  rw [View.read_apply]
  show V m c main_v8 _ = V m c main_v8 _
  congr 1
  funext a
  apply Fin.ext
  match a with
  | ⟨0, _⟩ => show win0_3.index t 0 * 256 + 1 * (y 0).val = (y 0).val; rw [e0]; omega
  | ⟨1, _⟩ => show win0_3.index t 1 * 768 + 1 * (y 1).val = (y 1).val; rw [e1]; omega
theorem bBi_eq (c : Dev nD) (t : Fin cfg0.N) : bBi m c t = aBi m c := by
  obtain ⟨-, -, -, -, -, -, -, -, e0, e1, -⟩ := idx_facts t
  funext y
  show iblk m c 4 t y = _
  unfold iblk
  rw [View.read_apply]
  show V m c main_v9 _ = V m c main_v9 _
  congr 1
  funext a
  apply Fin.ext
  match a with
  | ⟨0, _⟩ => show win0_4.index t 0 * 1 + 1 * (y 0).val = (y 0).val; rw [e0]; omega
  | ⟨1, _⟩ => show win0_4.index t 1 * 768 + 1 * (y 1).val = (y 1).val; rw [e1]; omega
theorem bBh_eq (c : Dev nD) (t : Fin cfg0.N) : bBh m c t = aBh m c := by
  obtain ⟨-, -, -, -, -, -, -, -, -, -, e0, e1, -⟩ := idx_facts t
  funext y
  show iblk m c 5 t y = _
  unfold iblk
  rw [View.read_apply]
  show V m c main_v10 _ = V m c main_v10 _
  congr 1
  funext a
  apply Fin.ext
  match a with
  | ⟨0, _⟩ => show win0_5.index t 0 * 1 + 1 * (y 0).val = (y 0).val; rw [e0]; omega
  | ⟨1, _⟩ => show win0_5.index t 1 * 768 + 1 * (y 1).val = (y 1).val; rw [e1]; omega

/-- WHAT POINT `t` WRITES BACK is block `t` of the array of new hidden values. -/
theorem flushed_eq (c : Dev nD) (t : Fin cfg0.N) :
    (dats m 0 c).flushed 6 t = ((cfg0.win 6).blk t).view.read (Elt Ideal) (newHid m c) := by
  obtain ⟨-, -, -, -, -, -, -, -, -, -, -, -, e0, e1⟩ := idx_facts t
  show (cfg0.win 6).cut (grid0.coords t) ((dats m 0 c).after 6 t) = _
  rw [after0_6]
  unfold out0_6
  rw [View.canon_unit_zero hz]
  simp only [View.ld_unit_zero (S := S512x685) hz, View.ld_unit_zero (S := S512x256) hz, View.ld_unit_zero (S := S685x768) hz,
    View.ld_unit_zero (S := S256x768) hz, View.ld_unit_zero (S := S1x768) hz]
  funext j
  show k0_pay1 (F := Ideal) (bMsg m c t) (bHid m c t) (bWi m c t) (bWh m c t) (bBi m c t) (bBh m c t) ((cfg0.win 6).xinj (grid0.coords t) j)
    = newHid m c (((cfg0.win 6).blk t).view.emb j)
  refine (Cert.KernelIdeal.Cell.pay_apply (bMsg m c t) (bHid m c t) (bWi m c t) (bWh m c t) (bBi m c t) (bBh m c t)
    ((cfg0.win 6).xinj (grid0.coords t) j)).trans ?_
  have hu : (((cfg0.win 6).blk t).view.emb j 0).val = 512 * t.val + ((cfg0.win 6).xinj (grid0.coords t) j 0).val := by
    show win0_6.index t 0 * 512 + 1 * (j 0).val = 512 * t.val + (j 0).val
    rw [e0]; omega
  have hq : (cfg0.win 6).xinj (grid0.coords t) j 1 = ((cfg0.win 6).blk t).view.emb j 1 := Fin.ext (by
    show (j 1).val = win0_6.index t 1 * 256 + 1 * (j 1).val
    rw [e1]; omega)
  show _ = updAt (aMsg m c) (aHid m c) (aWi m c) (aWh m c) (fun n => aBi m c (ix2 0 n)) (fun n => aBh m c (ix2 0 n))
    (((cfg0.win 6).blk t).view.emb j 0) (((cfg0.win 6).blk t).view.emb j 1)
  exact updAt_congr_row (aMsg m c) (aHid m c) (bMsg m c t) (bHid m c t) (aWi m c) (bWi m c t) (aWh m c) (bWh m c t)
    (fun n => aBi m c (ix2 0 n)) (fun n => aBh m c (ix2 0 n)) (fun n => bBi m c t (ix2 0 n)) (fun n => bBh m c t (ix2 0 n))
    (((cfg0.win 6).blk t).view.emb j 0) ((cfg0.win 6).xinj (grid0.coords t) j 0)
    (((cfg0.win 6).blk t).view.emb j 1) ((cfg0.win 6).xinj (grid0.coords t) j 1)
    (fun k => bMsg_at m c t _ k _ hu) (fun k => bHid_at m c t _ k _ hu) (bWi_eq m c t) (bWh_eq m c t)
    (by rw [bBi_eq]) (by rw [bBh_eq]) hq

/-- An index of the result is in point `t`'s block iff each coordinate is in the block's range on its axis. -/
theorem mem_blk (t : Fin cfg0.N) (i : S65536x256.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v11).slice (win0_6.rect t)).set ↔ _
  rw [View.set_slice_whole, Rect.mem_set_unit]
  exact Iff.rfl

/-- Every row of the result is in the block of the point that is its quotient by 512. -/
theorem cover (i : S65536x256.Idx) : ∃ t : Fin cfg0.N, (cfg0.win 6).flush t = true ∧ i ∈ ((cfg0.win 6).blk t).view.set := by
  have h0 : (i 0).val < 65536 := (i 0).isLt
  have h1 : (i 1).val < 256 := (i 1).isLt
  have hN : cfg0.N = 128 := N_0
  refine ⟨⟨(i 0).val / 512, by rw [hN]; omega⟩, flush0_6 _, ?_⟩
  obtain ⟨-, -, -, -, -, -, -, -, -, -, -, -, e0, e1⟩ := idx_facts ⟨(i 0).val / 512, by rw [hN]; omega⟩
  rw [mem_blk]
  intro a
  match a with
  | ⟨0, _⟩ =>
    show win0_6.index _ 0 * 512 ≤ (i 0).val ∧ (i 0).val < win0_6.index _ 0 * 512 + 512
    rw [e0]; show (i 0).val / 512 * 512 ≤ (i 0).val ∧ (i 0).val < (i 0).val / 512 * 512 + 512; omega
  | ⟨1, _⟩ =>
    show win0_6.index _ 1 * 256 ≤ (i 1).val ∧ (i 1).val < win0_6.index _ 1 * 256 + 256
    rw [e1]; omega

/-- THE RESULT ARRAY after the last point is the array of new hidden values. -/
theorem final (c : Dev nD) : (dats m 0 c).arrAt 6 cfg0.N = newHid m c :=
  (dats m 0 c).arrAt_eq_of_cover 6 (newHid m c) (fun t _ => flushed_eq m c t) cover

end Cert.KernelIdeal.Blocks
end
-- ==== Proof.KernelHost.lean ====
/-
  The host operations around the kernel, and the kernel's run read as one function of the arguments.

  Before the kernel @main gathers the hidden states of the indexed nodes (a negative index counted from the end of
  the table), transposes both weight matrices and reshapes both biases to rows; after it, it scatters the new hidden
  values back into the table at the same indices. So the result is the scatter, into the table, of the
  specification's array of new hidden values at those operands.
-/
import proofs.«138148_j82944408420703_1_alg».proof.Proof.KernelBlocks
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen Cert.KernelIdeal.Blocks Cert.GruSpec

variable (m : (ℓ : Loc nD τ sig) → Buf (Elt Ideal) ℓ) (ρ : Dev nD → PrngReg)

/-- The node indices as the gather and the scatter take them: a negative index counted from the table's end. -/
def nodeIdx (idx : IVec S65536 32) : IVec S65536x1 32 :=
  broadcastInDim S65536x1 ![0] bcast_S65536_S65536x1_0
    (select (cmpi .slt idx (broadcastInDim S65536 ![] bcast_S_S65536 (constantI S_ 32 0#32)))
      (addi idx (broadcastInDim S65536 ![] bcast_S_S65536 (constantI S_ 32 200000#32))) idx)

/-- The region finds the gathered hidden states, -/
theorem V_hid (c : Dev nD) :
    (V m c main_v6 : S65536x256.Idx → EReal)
      = Host.gather gather_S200000x256_S65536x1_S65536x256_1_0_n_n_0_1_1256 (m ((c : Thread nD τ).loc main_arg0)) (nodeIdx (m ((c : Thread nD τ).loc main_arg2))) := by
  show StableHlo.after hostOps0 (fun b => m (c, b)) (Proc.devRef .tc main_v6) = _
  after_results
  rfl
/-- the two transposed weight matrices, -/
theorem V_wi (c : Dev nD) :
    (V m c main_v7 : S685x768.Idx → EReal) = transpose S685x768 [1, 0] (m ((c : Thread nD τ).loc main_arg3)) transposes_S768x685_S685x768_1_0 := by
  show StableHlo.after hostOps0 (fun b => m (c, b)) (Proc.devRef .tc main_v7) = _
  after_results
theorem V_wh (c : Dev nD) :
    (V m c main_v8 : S256x768.Idx → EReal) = transpose S256x768 [1, 0] (m ((c : Thread nD τ).loc main_arg4)) transposes_S768x256_S256x768_1_0 := by
  show StableHlo.after hostOps0 (fun b => m (c, b)) (Proc.devRef .tc main_v8) = _
  after_results
/-- and the two biases as rows. -/
theorem V_bi (c : Dev nD) (n : Fin 768) :
    (V m c main_v9 : S1x768.Idx → EReal) (ix2 0 n) = (m ((c : Thread nD τ).loc main_arg5) : S768.Idx → EReal) (ix1 n) := by
  have e : (V m c main_v9 : S1x768.Idx → EReal) = shapeCast S1x768 (m ((c : Thread nD τ).loc main_arg5) : S768.Idx → EReal) shapeCasts_S768_S1x768 := by
    show StableHlo.after hostOps0 (fun b => m (c, b)) (Proc.devRef .tc main_v9) = _
    after_results
    rfl
  rw [e]
  exact shapeCast_apply _ _ (ix2 0 n) (ix1 n) (by rw [Shape.rowMajor_val_one, Shape.rowMajor_val_two]; show n.val = 0 * 768 + n.val; omega)
theorem V_bh (c : Dev nD) (n : Fin 768) :
    (V m c main_v10 : S1x768.Idx → EReal) (ix2 0 n) = (m ((c : Thread nD τ).loc main_arg6) : S768.Idx → EReal) (ix1 n) := by
  have e : (V m c main_v10 : S1x768.Idx → EReal) = shapeCast S1x768 (m ((c : Thread nD τ).loc main_arg6) : S768.Idx → EReal) shapeCasts_S768_S1x768 := by
    show StableHlo.after hostOps0 (fun b => m (c, b)) (Proc.devRef .tc main_v10) = _
    after_results
    rfl
  rw [e]
  exact shapeCast_apply _ _ (ix2 0 n) (ix1 n) (by rw [Shape.rowMajor_val_one, Shape.rowMajor_val_two]; show n.val = 0 * 768 + n.val; omega)

/-- THE RESULT OF @main: the new hidden values scattered into the table at the node indices. -/
theorem tail_eq (c : Dev nD) :
    Pipeline.afterTail₀ cfgs (dats m) 0 (V0 m) [hostOps1] c main_v18
      = Host.scatter scatter_S200000x256_S65536x1_S65536x256_1_0_0_1 (fun _ b => b) (m ((c : Thread nD τ).loc main_arg0))
          (nodeIdx (m ((c : Thread nD τ).loc main_arg2))) (newHid m c) := by
  unfold Pipeline.afterTail₀
  show StableHlo.after hostOps1 _ (Proc.devRef .tc main_v18) = _
  after_results
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h11 : Pipeline.withArrays (cfgs 0).spec c (V0 m c) (fun w => (dats m 0 c).arrAt w (cfgs 0).N) (Proc.devRef .tc main_v11)
      = newHid m c :=
    (Pipeline.withArrays_arr spec0 launch0.win.arr_inj c _ _ 6).trans (final m c)
  rw [h0, h2, h11]
  rfl

/-- The array of new hidden values, of the arguments. -/
theorem newHid_eq (c : Dev nD) :
    newHid m c = upd (m ((c : Thread nD τ).loc main_arg1))
      (Host.gather gather_S200000x256_S65536x1_S65536x256_1_0_n_n_0_1_1256 (m ((c : Thread nD τ).loc main_arg0)) (nodeIdx (m ((c : Thread nD τ).loc main_arg2))))
      (transpose S685x768 [1, 0] (m ((c : Thread nD τ).loc main_arg3)) transposes_S768x685_S685x768_1_0)
      (transpose S256x768 [1, 0] (m ((c : Thread nD τ).loc main_arg4)) transposes_S768x256_S256x768_1_0)
      (fun n => (m ((c : Thread nD τ).loc main_arg5) : S768.Idx → EReal) (ix1 n))
      (fun n => (m ((c : Thread nD τ).loc main_arg6) : S768.Idx → EReal) (ix1 n)) := by
  unfold newHid
  show upd (V m c main_arg1) (V m c main_v6) (V m c main_v7) (V m c main_v8) (fun n => V m c main_v9 (ix2 0 n)) (fun n => V m c main_v10 (ix2 0 n)) = _
  have hbi : (fun n : Fin 768 => (V m c main_v9 : S1x768.Idx → EReal) (ix2 0 n))
      = fun n => (m ((c : Thread nD τ).loc main_arg5) : S768.Idx → EReal) (ix1 n) := funext fun n => V_bi m c n
  have hbh : (fun n : Fin 768 => (V m c main_v10 : S1x768.Idx → EReal) (ix2 0 n))
      = fun n => (m ((c : Thread nD τ).loc main_arg6) : S768.Idx → EReal) (ix1 n) := funext fun n => V_bh m c n
  rw [hbi, hbh, V_main_arg1, V_hid, V_wi, V_wh]

/-- What @main returns, as one function of its arguments. -/
def result (c : Dev nD) : Buf (Elt Ideal) ((c.tc : Thread nD τ).loc main_v18) :=
  Host.scatter scatter_S200000x256_S65536x1_S65536x256_1_0_0_1 (fun _ b => b) (m ((c : Thread nD τ).loc main_arg0))
    (nodeIdx (m ((c : Thread nD τ).loc main_arg2)))
    (upd (m ((c : Thread nD τ).loc main_arg1))
      (Host.gather gather_S200000x256_S65536x1_S65536x256_1_0_n_n_0_1_1256 (m ((c : Thread nD τ).loc main_arg0)) (nodeIdx (m ((c : Thread nD τ).loc main_arg2))))
      (transpose S685x768 [1, 0] (m ((c : Thread nD τ).loc main_arg3)) transposes_S768x685_S685x768_1_0)
      (transpose S256x768 [1, 0] (m ((c : Thread nD τ).loc main_arg4)) transposes_S768x256_S256x768_1_0)
      (fun n => (m ((c : Thread nD τ).loc main_arg5) : S768.Idx → EReal) (ix1 n))
      (fun n => (m ((c : Thread nD τ).loc main_arg6) : S768.Idx → EReal) (ix1 n)))

/-- THE KERNEL'S RUN, READ: every weakly fair execution ends with the result at `result` and the arguments unchanged. -/
theorem run : θ_run defs (onTc (τ := τ) (main (F := Ideal))) ⟨m, fun _ => 0, ρ⟩ fun r => ∀ c : Dev nD,
      r.2.mem ((c.tc : Thread nD τ).loc main_v18) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      (((h c).2 main_v18 (Pipeline.mem_restRefs_of main_v18 (by decide) (by decide))).trans (tail_eq m c)).trans
        (by rw [newHid_eq]; rfl),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.KernelIdeal.Host
end
-- ==== Proof.RefValue.lean ====
/-
  The reference's array of new hidden values is the specification's.

  The reference forms `gi = msg · W_ihᵀ + b_ih` and `gh = h · W_hhᵀ + b_hh` over all 65536 rows at once (each
  `dot_general` at the exact values is the plain sum over the contracted axis; each bias is repeated down the rows),
  cuts them into the three bands, writes the logistic function as `1 / (1 + exp (-x))`, and combines. Entry by entry
  this is the cell of the specification.
-/
import proofs.«138148_j82944408420703_1_alg».proof.Proof.Gen.ReferenceIdeal.Read
import proofs.«138148_j82944408420703_1_alg».proof.Proof.GruSpec
import Idealize.ShloMosaic.Lib.IdealHost

noncomputable section

open scoped BigOperators

namespace Cert.ReferenceIdeal.RefValue

open Idealize.ShloMosaic Idealize.ShloMosaic.ValueIdx Cert.ReferenceIdeal Cert.ReferenceIdeal.Gen Cert.ReferenceIdeal.Read Cert.GruSpec

variable (x0 : (⟨S200000x256, .f32⟩ : BufTy).Contents (Elt Ideal)) (x1 : (⟨S65536x685, .f32⟩ : BufTy).Contents (Elt Ideal)) (x2 : (⟨S65536, .i32⟩ : BufTy).Contents (Elt Ideal))
  (x3 : (⟨S768x685, .f32⟩ : BufTy).Contents (Elt Ideal)) (x4 : (⟨S768x256, .f32⟩ : BufTy).Contents (Elt Ideal)) (x5 x6 : (⟨S768, .f32⟩ : BufTy).Contents (Elt Ideal))

/-- The input-side pre-activation at row `u`, column `n`. -/
theorem gi_ref (u : Fin 65536) (n : Fin 768) :
    val_main_v11 (F := Ideal) x1 x3 x5 (ix2 u n) = affine x1 (val_main_v7 (F := Ideal) x3) (fun n => x5 (ix1 n)) u n := by
  rw [val_main_v11_apply, val_main_v8_apply, val_main_v10_apply, val_main_v9_apply]
  show _ + _ = _
  unfold affine
  refine congrArg₂ (· + ·) ?_ ?_
  · refine Finset.sum_congr rfl fun k _ => ?_
    have e1 : lidx_main_v8 (ix2 u n) k = ix2 u k := funext fun a => by
      match a with
      | ⟨0, _⟩ => rfl
      | ⟨1, _⟩ => rfl
    have e2 : ridx_main_v8 (ix2 u n) k = ix2 k n := funext fun a => by
      match a with
      | ⟨0, _⟩ => rfl
      | ⟨1, _⟩ => rfl
    rw [e1, e2]
  · exact congrArg x5 (funext fun a => by
      match a with
      | ⟨0, _⟩ => rfl)

/-- The hidden-side pre-activation at row `u`, column `n`, of the gathered hidden states. -/
theorem gh_ref (u : Fin 65536) (n : Fin 768) :
    val_main_v16 (F := Ideal) x0 x2 x4 x6 (ix2 u n)
      = affine (val_main_v6 (F := Ideal) x0 x2) (val_main_v12 (F := Ideal) x4) (fun n => x6 (ix1 n)) u n := by
  rw [val_main_v16_apply, val_main_v13_apply, val_main_v15_apply, val_main_v14_apply]
  show _ + _ = _
  unfold affine
  refine congrArg₂ (· + ·) ?_ ?_
  · refine Finset.sum_congr rfl fun k _ => ?_
    have e1 : lidx_main_v13 (ix2 u n) k = ix2 u k := funext fun a => by
      match a with
      | ⟨0, _⟩ => rfl
      | ⟨1, _⟩ => rfl
    have e2 : ridx_main_v13 (ix2 u n) k = ix2 k n := funext fun a => by
      match a with
      | ⟨0, _⟩ => rfl
      | ⟨1, _⟩ => rfl
    rw [e1, e2]
  · exact congrArg x6 (funext fun a => by
      match a with
      | ⟨0, _⟩ => rfl)

/-- The three bands' columns. -/
theorem bandR (u : Fin 65536) (j : Fin 256) : idx_main_v17 (ix2 u j) = ix2 u (colR j) := funext fun a => by
  match a with
  | ⟨0, _⟩ => rfl
  | ⟨1, _⟩ => rfl
theorem bandZ (u : Fin 65536) (j : Fin 256) : idx_main_v18 (ix2 u j) = ix2 u (colZ j) := funext fun a => by
  match a with
  | ⟨0, _⟩ => rfl
  | ⟨1, _⟩ => rfl
theorem bandN (u : Fin 65536) (j : Fin 256) : idx_main_v19 (ix2 u j) = ix2 u (colN j) := funext fun a => by
  match a with
  | ⟨0, _⟩ => rfl
  | ⟨1, _⟩ => rfl

/-- THE REFERENCE'S NEW HIDDEN VALUES are the cell's, entry by entry. -/
theorem newHid_ref :
    val_main_v44 (F := Ideal) x0 x1 x2 x3 x4 x5 x6
      = upd x1 (val_main_v6 (F := Ideal) x0 x2) (val_main_v7 (F := Ideal) x3) (val_main_v12 (F := Ideal) x4)
          (fun n => x5 (ix1 n)) (fun n => x6 (ix1 n)) := by
  funext i
  obtain ⟨u, j, rfl⟩ : ∃ (u : Fin 65536) (j : Fin 256), i = ix2 u j := ⟨i 0, i 1, eq_ix2 i⟩
  show _ = updAt _ _ _ _ _ _ u j
  simp only [val_main_v44_apply, val_main_v43_apply, val_main_v42_apply, val_main_v41_apply, val_main_v40_apply, val_main_cst_4_apply,
    val_main_v39_apply, val_main_v38_apply, val_main_v37_apply, val_main_v36_apply, val_main_v35_apply, val_main_cst_3_apply,
    val_main_v34_apply, val_main_v33_apply, val_main_cst_2_apply, val_main_v32_apply, val_main_v31_apply, val_main_v30_apply,
    val_main_v29_apply, val_main_v28_apply, val_main_cst_1_apply, val_main_v27_apply, val_main_v26_apply, val_main_cst_apply,
    val_main_v25_apply, val_main_v24_apply, val_main_v23_apply,
    val_main_v17_apply, val_main_v18_apply, val_main_v19_apply, val_main_v20_apply, val_main_v21_apply, val_main_v22_apply]
  rw [bandR, bandZ, bandN, gi_ref, gi_ref, gi_ref]
  rw [show idx_main_v20 (ix2 u j) = ix2 u (colR j) from bandR u j, show idx_main_v21 (ix2 u j) = ix2 u (colZ j) from bandZ u j,
    show idx_main_v22 (ix2 u j) = ix2 u (colN j) from bandN u j, gh_ref, gh_ref, gh_ref]
  unfold updAt cell
  show (Ideal.ofBits .f32 0x3F800000#32 - Ideal.div (Ideal.ofBits .f32 0x3F800000#32) (Ideal.ofBits .f32 0x3F800000#32 + Ideal.exp (-_))) * Ideal.tanh (_ + Ideal.div (Ideal.ofBits .f32 0x3F800000#32) (Ideal.ofBits .f32 0x3F800000#32 + Ideal.exp (-_)) * _) + Ideal.div (Ideal.ofBits .f32 0x3F800000#32) (Ideal.ofBits .f32 0x3F800000#32 + Ideal.exp (-_)) * _ = _
  rw [Ideal.ofBits_one_f32]
  rfl

/-- WHAT THE REFERENCE RETURNS: the new hidden values scattered into the table at the node indices. -/
theorem result_ref :
    val_main_v51 (F := Ideal) x0 x1 x2 x3 x4 x5 x6
      = Host.scatter scatter_S200000x256_S65536x1_S65536x256_1_0_0_1 (fun _ b => b) x0 (val_main_v50 (F := Ideal) x2)
          (upd x1 (val_main_v6 (F := Ideal) x0 x2) (val_main_v7 (F := Ideal) x3) (val_main_v12 (F := Ideal) x4)
            (fun n => x5 (ix1 n)) (fun n => x6 (ix1 n))) := by
  unfold val_main_v51
  rw [newHid_ref]

end Cert.ReferenceIdeal.RefValue
end
-- ==== Proof.lean ====
/-
  A gated-recurrent-cell update of a node-memory table, against its jnp reference, over the extended reals.

  Both programs gather the hidden states `h` of 65536 indexed nodes from a table of 200000 rows, form
  `gi = msg · W_ihᵀ + b_ih` and `gh = h · W_hhᵀ + b_hh`, read each in a reset, an update and a candidate band, and
  scatter `(1 - z) · tanh (gi_n + r · gh_n) + z · h`, with `r = σ (gi_r + gh_r)` and `z = σ (gi_z + gh_z)`, back into
  the table at the same indices. The kernel computes the new hidden values 512 rows at a time, with matrix products
  into a zero accumulator whose operands it narrows to bf16 (the identity on exact values) and with the logistic
  function as one operation; the reference computes them for all rows at once, with `dot_general` and the logistic
  function spelt `1 / (1 + exp (-x))`. At the exact values both arrays of new hidden values are one function of the
  arguments, entry by entry (no law of the extended reals beyond the definitions is needed), and the gather, the
  index arithmetic and the scatter are the same operations of the same operands on both sides.

  The frames of the kernel, at the word level and at the exact values, are the generated ones; the reference's is its
  generated run with the result dropped; the idealization rewrote nothing.
-/
import proofs.«138148_j82944408420703_1_alg».proof.Defs
import proofs.«138148_j82944408420703_1_alg».proof.Proof.Gen.Kernel
import proofs.«138148_j82944408420703_1_alg».proof.Proof.Gen.Kernel.Frame
import proofs.«138148_j82944408420703_1_alg».proof.Proof.Gen.KernelIdeal
import proofs.«138148_j82944408420703_1_alg».proof.Proof.Gen.KernelIdeal.Frame
import proofs.«138148_j82944408420703_1_alg».proof.Proof.Gen.ReferenceIdeal
import proofs.«138148_j82944408420703_1_alg».proof.Proof.Gen.ReferenceIdeal.Run
import proofs.«138148_j82944408420703_1_alg».proof.Proof.Gen.ReferenceIdeal.Read
import proofs.«138148_j82944408420703_1_alg».proof.Proof.Gen.Pre_finite_inputs
import proofs.«138148_j82944408420703_1_alg».proof.Proof.KernelHost
import proofs.«138148_j82944408420703_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the table updated by the same array of new
    hidden values at the same indices. -/
theorem algebraic : Cert.algebraic_KernelIdeal_ReferenceIdeal := by
  intro m ρ m' ρ' _ hagree
  refine ⟨fun c => Cert.KernelIdeal.Host.result m c, Cert.KernelIdeal.Host.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.RefValue.result_ref]
  obtain ⟨h0, h1, h2, h3, h4, h5, h6⟩ := hagree c
  rw [h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
